-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) (main_arg2 : FVec F S8192x4096 .f32) (main_arg3 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  main_v13
-- ==== Kernel.lean ====
abbrev S8192x4096 : Shape := ⟨2, ![8192, 4096]⟩
abbrev S8192 : Shape := ⟨1, ![8192]⟩
abbrev S_ : Shape := ⟨0, ![]⟩
abbrev S8192x1 : Shape := ⟨2, ![8192, 1]⟩
abbrev S1x1 : Shape := ⟨2, ![1, 1]⟩
abbrev S256x4096 : Shape := ⟨2, ![256, 4096]⟩
abbrev S256x1 : Shape := ⟨2, ![256, 1]⟩
abbrev S1x256x4096 : Shape := ⟨3, ![1, 256, 4096]⟩
abbrev S1 : Shape := ⟨1, ![1]⟩
abbrev S1x1x1 : Shape := ⟨3, ![1, 1, 1]⟩

abbrev nBuf : Space → Nat
  | .hbm => 17
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S8192, .i1⟩
  | .hbm, ⟨11, _⟩ => ⟨S8192, .f32⟩
  | .hbm, ⟨12, _⟩ => ⟨S8192x1, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x1, .f32⟩
  | .local _ .vmem, ⟨7, _⟩ => ⟨S256x1, .f32⟩
  | .local _ .vmem, ⟨8, _⟩ => ⟨S1x1, .f32⟩
  | .local _ .vmem, ⟨9, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_cst : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v60 : BitVec 1 := Scalar.cmpi .eq arg0 c31_i32
  let v61 : BitVec 32 := Scalar.extui v60
  let c0_i32_23 : BitVec 32 := 0#32
  let v62 : BitVec 1 := Scalar.cmpi .ne v61 c0_i32_23
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  shapeCasts_S256x4096_S1x256x4096 : S256x4096.ShapeCasts S1x256x4096
  reduces_S1x256x4096_S1 : S1x256x4096.Reduces [1, 2] S1
  shapeCasts_S1_S1x1x1 : S1.ShapeCasts S1x1x1
  inpos_S1x1x1_p0_0_0 : ∀ a, (![0, 0, 0] : Fin 3 → Nat) a < S1x1x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S_ : Shape := ⟨0, ![]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192, .i32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i1⟩
  | .hbm, ⟨27, _⟩ => ⟨S8192, .f32⟩
  | .hbm, ⟨28, _⟩ => ⟨S8192x1, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192x4096, .f32⟩
  | .hbm, ⟨35, _⟩ => ⟨S8192x4096, .i1⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S_, .f32⟩
  | .hbm, ⟨51, _⟩ => ⟨S_, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  reducesTo_S8192x4096_S_d0_1 : S8192x4096.ReducesTo [0, 1] S_
  h_S_ : 0 < S_.numel

variable [Facts₀]

class Facts : Prop extends Facts₀ where

variable [Facts]
-- ==== Proof.KernelAccum.lean ====
/-
  What the kernel's accumulator holds, read off its run.

  The grid has 32 points. At every point the body adds ONE number to a one-element accumulator: the point's three
  block sums, added together (the payload of its one store into the accumulator). The first point first stores a
  zero there; the last point copies the accumulator into the one-element output, which is written back then and only
  then. So after point `n` the accumulator is `step (blocks at n) (what point n - 1 left)`, from the zero at the first
  point: `acc` below, a recursion on the point, and the output array ends at `acc` after point 31. The host line after
  the call reshapes that one element to a scalar and divides it by 8192.

  Everything here holds for any float values; what the numbers are is read in KernelSums.lean at the extended reals.
-/
import proofs.«167980_j43757126811747_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- One point's update: the accumulator's old contents plus the point's three block sums, as the body's one store
    into the accumulator computes it from the four input blocks. -/
def step (x0 x1 x2 : Vec F S256x4096 .f32) (x3 : Vec F S256x1 .f32) (prev : Vec F S1x1 .f32) : Vec F S1x1 .f32 :=
  k0_pay1 x0 x1 (k0_pay3 x0 x2 x3) (k0_pay4 x0) (k0_pay5 x0) (k0_pay6 x0) prev

/-! ## What each control case leaves -/

/-- A middle point (neither first nor last): the accumulator found at `xs0` is left at its update. -/
theorem sout_B (c : Dev nD) (i : grid0.Coords) (a1 : Memref sig .tc .vmem S256x4096 .f32) (h1 : a1.IsWhole) (a2 : Memref sig .tc .vmem S256x4096 .f32) (h2 : a2.IsWhole) (a3 : Memref sig .tc .vmem S256x4096 .f32) (h3 : a3.IsWhole) (a4 : Memref sig .tc .vmem S256x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 x2 : Vec F S256x4096 .f32) (x3 : Vec F S256x1 .f32) (xs0 : Vec F S1x1 .f32) :
    sout0_B_0 c i a1 h1 a2 h2 a3 h3 a4 h4 a5 h5 a6 h6 hc0 hc1 x0 x1 x2 x3 xs0 = step x0 x1 x2 x3 xs0 := by
  unfold sout0_B_0
  rw [View.read_writes_eq_canon _ _ _ (scover0_B_0 c i a1 h1 a2 h2 a3 h3 a4 h4 a5 h5 a6 h6 hc0 hc1 x0 x1 x2 x3 xs0)]
  unfold kernelRun0_B
  dsimp only
  sl_unfold_words
  rw [View.canon_unit_zero hz]
  simp only [View.readAt_eq_ld, h1.read_unread, h2.read_unread, h3.read_unread, h4.read_unread, h6.read_unread,
    View.ld_unit_zero (S := S256x4096) hz, View.ld_unit_zero (S := S256x1) hz, View.ld_unit_zero (S := S1x1) hz]
  rfl

/-- The first point: the zero it has just stored is what its update reads back. -/
theorem sout_A (c : Dev nD) (i : grid0.Coords) (a1 : Memref sig .tc .vmem S256x4096 .f32) (h1 : a1.IsWhole) (a2 : Memref sig .tc .vmem S256x4096 .f32) (h2 : a2.IsWhole) (a3 : Memref sig .tc .vmem S256x4096 .f32) (h3 : a3.IsWhole) (a4 : Memref sig .tc .vmem S256x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 x2 : Vec F S256x4096 .f32) (x3 : Vec F S256x1 .f32) :
    sout0_A_0 c i a1 h1 a2 h2 a3 h3 a4 h4 a5 h5 a6 h6 hc0 hc1 x0 x1 x2 x3 = step x0 x1 x2 x3 k0_pay2 := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S256x4096) hz, View.ld_unit_zero (S := S256x1) hz]
  rfl

/-- The last point leaves the accumulator at its update, like a middle point; -/
theorem sout_C (c : Dev nD) (i : grid0.Coords) (a1 : Memref sig .tc .vmem S256x4096 .f32) (h1 : a1.IsWhole) (a2 : Memref sig .tc .vmem S256x4096 .f32) (h2 : a2.IsWhole) (a3 : Memref sig .tc .vmem S256x4096 .f32) (h3 : a3.IsWhole) (a4 : Memref sig .tc .vmem S256x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 x2 : Vec F S256x4096 .f32) (x3 : Vec F S256x1 .f32) (xs0 : Vec F S1x1 .f32) :
    sout0_C_0 c i a1 h1 a2 h2 a3 h3 a4 h4 a5 h5 a6 h6 hc0 hc1 x0 x1 x2 x3 xs0 = step x0 x1 x2 x3 xs0 := by
  unfold sout0_C_0
  rw [View.read_writes_eq_canon _ _ _ (scover0_C_0 c i a1 h1 a2 h2 a3 h3 a4 h4 a5 h5 a6 h6 hc0 hc1 x0 x1 x2 x3 xs0)]
  unfold kernelRun0_C
  dsimp only
  sl_unfold_words
  rw [View.canon_unit_zero hz]
  simp only [View.readAt_eq_ld, h1.read_unread, h2.read_unread, h3.read_unread, h4.read_unread, h6.read_unread,
    View.ld_unit_zero (S := S256x4096) hz, View.ld_unit_zero (S := S256x1) hz, View.ld_unit_zero (S := S1x1) hz]
  rfl

/-- and stores into the output what it then reads from the accumulator: the same update. -/
theorem out_C (c : Dev nD) (i : grid0.Coords) (a1 : Memref sig .tc .vmem S256x4096 .f32) (h1 : a1.IsWhole) (a2 : Memref sig .tc .vmem S256x4096 .f32) (h2 : a2.IsWhole) (a3 : Memref sig .tc .vmem S256x4096 .f32) (h3 : a3.IsWhole) (a4 : Memref sig .tc .vmem S256x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 x2 : Vec F S256x4096 .f32) (x3 : Vec F S256x1 .f32) (xs0 : Vec F S1x1 .f32) :
    out0_C_4 c i a1 h1 a2 h2 a3 h3 a4 h4 a5 h5 a6 h6 hc0 hc1 x0 x1 x2 x3 xs0 = step x0 x1 x2 x3 xs0 := by
  unfold out0_C_4
  rw [View.read_writes_eq_canon _ _ _ (cover0_C_4 c i a1 h1 a2 h2 a3 h3 a4 h4 a5 h5 a6 h6 hc0 hc1 x0 x1 x2 x3 xs0)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h6.read_unread,
    View.ld_unit_zero (S := S256x4096) hz, View.ld_unit_zero (S := S256x1) hz, View.ld_unit_zero (S := S1x1) hz]
  rfl

/-! ## The accumulator, point by point -/

/-- The four input blocks at a point, at their literal types: the prediction, the second prediction, the label, the
    row weights. -/
abbrev oblk (c : Dev nD) (t : Fin cfg0.N) : Vec F S256x4096 .f32 := iblk m c 0 t
abbrev cblk (c : Dev nD) (t : Fin cfg0.N) : Vec F S256x4096 .f32 := iblk m c 1 t
abbrev lblk (c : Dev nD) (t : Fin cfg0.N) : Vec F S256x4096 .f32 := iblk m c 2 t
abbrev kblk (c : Dev nD) (t : Fin cfg0.N) : Vec F S256x1 .f32 := iblk m c 3 t

/-- The accumulator after point `n`: the first point updates the zero, every later one what the point before left. -/
def acc (c : Dev nD) : (n : ℕ) → n < cfg0.N → Vec F S1x1 .f32
  | 0, h => step (oblk m c ⟨0, h⟩) (cblk m c ⟨0, h⟩) (lblk m c ⟨0, h⟩) (kblk m c ⟨0, h⟩) k0_pay2
  | n + 1, h => step (oblk m c ⟨n + 1, h⟩) (cblk m c ⟨n + 1, h⟩) (lblk m c ⟨n + 1, h⟩) (kblk m c ⟨n + 1, h⟩)
      (acc c n (Nat.lt_of_succ_lt h))

/-- The run's own account of the accumulator after each point is `acc`: by induction on the point, the three control
    cases told apart by the point's number. -/
theorem scratch_eq (c : Dev nD) : ∀ (n : ℕ) (h : n < cfg0.N), (outsAt0 m c n h).2 = acc m c n h
  | 0, h => by
    rw [outsAt0_A m c ⟨0, h⟩ rfl (by dsimp only; omega)]
    dsimp only
    exact sout_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (oblk m c ⟨0, h⟩) (cblk m c ⟨0, h⟩) (lblk m c ⟨0, h⟩) (kblk m c ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [sout_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (oblk m c ⟨n + 1, h⟩) (cblk m c ⟨n + 1, h⟩) (lblk m c ⟨n + 1, h⟩) (kblk m c ⟨n + 1, h⟩)]
      show step _ _ _ _ (outsAt0 m c n _).2 = step _ _ _ _ (acc m c n _)
      rw [scratch_eq c n]
    · rw [outsAt0_B m c ⟨n + 1, h⟩ h0 h1]
      dsimp only
      rw [sout_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (oblk m c ⟨n + 1, h⟩) (cblk m c ⟨n + 1, h⟩) (lblk m c ⟨n + 1, h⟩) (kblk m c ⟨n + 1, h⟩)]
      show step _ _ _ _ (outsAt0 m c n _).2 = step _ _ _ _ (acc m c n _)
      rw [scratch_eq c n]

/-- The last point. -/
abbrev tLast : Fin cfg0.N := ⟨31, by rw [show cfg0.N = 32 from N_0]; decide⟩

/-- At the last point the output's staging buffer holds the accumulator's final contents. -/
theorem out_last (c : Dev nD) : (outsAt0 m c (tLast).val (tLast).isLt).1 = acc m c 31 (tLast).isLt := by
  rw [outsAt0_C m c tLast (by decide) (by decide)]
  dsimp only
  rw [out_C (F := F) c (grid0.coords tLast) (ms0_0 tLast) (hs0_0 tLast) (ms0_1 tLast) (hs0_1 tLast) (ms0_2 tLast) (hs0_2 tLast) (ms0_3 tLast) (hs0_3 tLast) (ms0_4 tLast) (hs0_4 tLast) scM0_0 (Memref.isWhole_whole _) _ _ (oblk m c tLast) (cblk m c tLast) (lblk m c tLast) (kblk m c tLast)]
  show step _ _ _ _ (outsAt0 m c 30 _).2 = step _ _ _ _ (acc m c 30 _)
  rw [scratch_eq m c 30]

/-! ## The output array, and the scalar the host makes of it -/

/-- The accumulator's final contents, as contents of the one-element output array. -/
abbrev result (c : Dev nD) : Buf (Elt F) ((c : Thread nD τ).loc main_call0_v7) := acc m c 31 (tLast).isLt

/-- The one write-back, at the last point, writes it: the array's one block, read through zero offsets, is the array. -/
theorem flushed_eq (c : Dev nD) (t : Fin cfg0.N) (hf : (cfg0.win 4).flush t = true) :
    (dats m 0 c).flushed 4 t = ((cfg0.win 4).blk t).view.read (Elt F) (result m c) := by
  have hN : cfg0.N = 32 := N_0
  have h31 : t.val = 31 := by have := (flush0_4 t).mp hf; have := t.isLt; omega
  obtain rfl : t = tLast := Fin.ext h31
  show (cfg0.win 4).cut (grid0.coords tLast) ((dats m 0 c).after 4 tLast) = _
  rw [after0_4, out_last]
  have hz' : (fun a => win0_4.index tLast a * main_call0_v7.ty.shape.size a) = fun _ => 0 := funext fun a => by fin_cases a <;> decide
  exact (Memref.read_access_unit_zero (Elt F) main_call0_v7 hz' (fun a => by rw [congrFun hz' a]; simp) (result m c)).symm

/-- So the output array ends at the accumulator's final contents. -/
theorem final_out (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_call0_v7).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The program's result: the output's one element as a scalar, divided by the constant 8192. -/
abbrev answer (c : Dev nD) : Buf (Elt F) ((c : Thread nD τ).loc main_v0) :=
  Host.divf (shapeCast S_ (result m c) shapeCasts_S1x1_S_) (constant S_ .f32 0x46000000#32)

/-- The host lines after the call compute it from the output array. -/
theorem tail_eq (c : Dev nD) :
    Pipeline.afterTail₀ cfgs (dats m) 0 (V0 m) [hostOps1] c main_v0 = answer m c := by
  unfold Pipeline.afterTail₀
  show StableHlo.after hostOps1 _ (Proc.devRef .tc main_v0) = _
  after_results
  have e : Pipeline.withArrays (cfgs 0).spec c (V0 m c) (fun w => (dats m 0 c).arrAt w (cfgs 0).N) (Proc.devRef .tc main_call0_v7)
      = result m c := (Pipeline.withArrays_arr spec0 launch0.win.arr_inj c _ _ 4).trans (final_out m c)
  show Host.divf (shapeCast S_ (Pipeline.withArrays (cfgs 0).spec c (V0 m c) (fun w => (dats m 0 c).arrAt w (cfgs 0).N) (Proc.devRef .tc main_call0_v7)) shapeCasts_S1x1_S_) (constant S_ .f32 0x46000000#32) = _
  rw [e]

/-- The run, read: the result buffer ends at `answer`, the four arguments as they were launched. -/
theorem run : θ_run defs (onTc (τ := τ) (main (F := F))) ⟨m, fun _ => 0, ρ⟩ fun r => ∀ c : Dev nD,
      r.2.mem ((c.tc : Thread nD τ).loc main_v0) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Accum

end
-- ==== Proof.LossSum.lean ====
/-
  The loss as mathematics, free of either program.

  For rows a < 8192 and columns b < 4096, with o the prediction, c the second prediction, l the label and
  k a per-row weight, the loss adds up three per-element terms:

    bce o l k  = (0 - (l * max (log o) (-100) + (1 - l) * max (log (1 + (0 - o))) (-100))) * k
    pseudo o   = (o - sharp o)^2,   cons o c = (c - sharp o)^2,
    sharp o    = if o > 1/2 then o + (1 - o) / 4 else o - o / 4.

  Both programs form these terms with the same operations on the extended reals; they differ only in how the
  8192 * 4096 terms of each kind are grouped before they are added. Addition on the extended reals is
  commutative and associative (also at the infinities), so any grouping gives one value: the two lemmas below
  are that fact for the two groupings met here - rows taken 256 at a time (`sum_row_blocks`), and a running
  total that takes in one block's three partial sums at a time (`running_total`).
-/
import Idealize.ShloMosaic.PureOps.Ideal
import Idealize.ShloMosaic.PureOps.Ideal.Laws
import Idealize.ShloMosaic.Lib.ValueIdx

noncomputable section

namespace Cert.SemiLoss

open Idealize.ShloMosaic
open scoped BigOperators

/-! ## The per-element terms -/

/-- The float patterns of the constants, as the extended reals they denote. -/
abbrev zeroW : EReal := Ideal.ofBits .f32 0x00000000#32
abbrev oneW : EReal := Ideal.ofBits .f32 0x3F800000#32
abbrev floorW : EReal := Ideal.ofBits .f32 0xC2C80000#32
abbrev halfW : EReal := Ideal.ofBits .f32 0x3F000000#32
abbrev fourW : EReal := Ideal.ofBits .f32 0x40800000#32

/-- The weighted cross-entropy term of one element, with both logarithms clamped from below. -/
def bce (o l k : EReal) : EReal :=
  (zeroW - (l * max (Ideal.log o) floorW + (oneW - l) * max (Ideal.log1p (zeroW - o)) floorW)) * k

/-- The same term with its two subtractions from zero written as negations: `0 - x = -x` on the extended reals,
    at the infinities too. -/
theorem bce_eq_neg (o l k : EReal) :
    bce o l k = (-(l * max (Ideal.log o) floorW + (oneW - l) * max (Ideal.log1p (-o)) floorW)) * k := by
  unfold bce
  rw [show zeroW = 0 from Ideal.ofBits_zero_f32, zero_sub, zero_sub]

/-- The sharpened prediction: pushed a quarter of the way to 1 above one half, a quarter of the way to 0 otherwise. -/
def sharp (o : EReal) : EReal :=
  Scalar.select (Ideal.cmp .ogt o halfW) (o + Ideal.div (oneW - o) fourW) (o - Ideal.div o fourW)

/-- The squared distance of the prediction from its sharpening. -/
def pseudo (o : EReal) : EReal := (o - sharp o) * (o - sharp o)

/-- The squared distance of the second prediction from the first one's sharpening. -/
def cons (o c : EReal) : EReal := (c - sharp o) * (c - sharp o)

/-- The loss before its division by the row count: the three totals over all rows and columns, each from the float zero,
    added in the order cross-entropy, consistency, pseudo-label. -/
def total (o c l : Fin 8192 → Fin 4096 → EReal) (k : Fin 8192 → EReal) : EReal :=
  ((zeroW + ∑ a : Fin 8192, ∑ b : Fin 4096, bce (o a b) (l a b) (k a))
    + (zeroW + ∑ a : Fin 8192, ∑ b : Fin 4096, cons (o a b) (c a b)))
    + (zeroW + ∑ a : Fin 8192, ∑ b : Fin 4096, pseudo (o a b))

/-- The loss: the total divided by the row count 8192 (as a float pattern). -/
def loss (o c l : Fin 8192 → Fin 4096 → EReal) (k : Fin 8192 → EReal) : EReal :=
  Ideal.div (total o c l k) (Ideal.ofBits .f32 0x46000000#32)

/-- A row's weight from its source word: 1 where the word is 0 or 1, else 0 (the bit of the test, converted). -/
def rowWeight (s : BitVec 32) : EReal :=
  FloatOps.uitofp (F := Ideal) .f32 (IntOp.ori (IntOp.cmpi .eq s 0#32) (IntOp.cmpi .eq s 1#32))

/-! ## Regrouping sums -/

/-- A sum over 8192 rows is the sum over 32 blocks of the sums over each block's 256 rows. -/
theorem sum_row_blocks {M : Type*} [AddCommMonoid M] (g : Fin 8192 → M) :
    ∑ a : Fin 8192, g a
      = ∑ t : Fin 32, ∑ r : Fin 256, g ⟨256 * t.val + r.val, by have := t.isLt; have := r.isLt; omega⟩ := by
  rw [← (finProdFinEquiv : Fin 32 × Fin 256 ≃ Fin (32 * 256)).sum_comp (g : Fin (32 * 256) → M), Fintype.sum_prod_type]
  refine Finset.sum_congr rfl fun t _ => Finset.sum_congr rfl fun r _ => congrArg g (Fin.ext ?_)
  show r.val + 256 * t.val = 256 * t.val + r.val
  exact Nat.add_comm _ _

/-- A running total that starts at `z + B 0` and takes in `B (n + 1)` at step `n + 1` holds, after step `n`,
    `z` plus the sum of the first `n + 1` addends. -/
theorem running_total {M : Type*} [AddCommMonoid M] (N : ℕ) (B : (n : ℕ) → n < N → M) (z : M)
    (acc : (n : ℕ) → n < N → M) (h0 : ∀ h, acc 0 h = z + B 0 h)
    (hs : ∀ n (h : n + 1 < N), acc (n + 1) h = acc n (Nat.lt_of_succ_lt h) + B (n + 1) h) :
    ∀ n (h : n < N), acc n h = z + ∑ t : Fin (n + 1), B t.val (lt_of_le_of_lt (Nat.lt_succ_iff.mp t.isLt) h)
  | 0, h => by
    rw [h0, Fin.sum_univ_one]; rfl
  | n + 1, h => by
    rw [hs, running_total N B z acc h0 hs n (Nat.lt_of_succ_lt h), add_assoc]
    conv_rhs => rw [Fin.sum_univ_castSucc]
    rfl

/-- Thirty-two blocks, each contributing `(A t + P t) + C t` to a running total: the total is the three sums over the
    blocks, in whatever order they are then added. -/
theorem sum_three {M : Type*} [AddCommMonoid M] {ι : Type*} [Fintype ι] (A P C : ι → M) :
    ∑ t, ((A t + P t) + C t) = (∑ t, A t + ∑ t, C t) + ∑ t, P t := by
  rw [Finset.sum_add_distrib, Finset.sum_add_distrib, add_right_comm]

end Cert.SemiLoss

end
-- ==== Proof.KernelSums.lean ====
/-
  The kernel's numbers, at the extended reals.

  At a point, the body turns its four blocks (256 rows of the prediction, the second prediction, the label and the row
  weights) into three sums over the block's 256 * 4096 elements - of the cross-entropy terms, the pseudo-label terms
  and the consistency terms - and adds `(bce + pseudo) + cons` to the accumulator (`step_apply`). A block sum is
  printed as a reshape to one more (unit) axis, a reduction over the two long axes, a reshape, and an extraction: at
  the extended reals that is the plain double sum over rows and columns (`block_sum`), and each summand is the
  per-element term of LossSum.lean by unfolding.

  Row `r` of block `t` is row `256 t + r` of the array (`oblk_apply` and its siblings), so the accumulator after the
  last point is the float zero plus the sum over the 32 blocks of those three block sums (`acc_last`), which regroups
  (LossSum.lean) into the three totals over all 8192 rows: `answer_eq`.
-/
import proofs.«167980_j43757126811747_1_alg».proof.Proof.KernelAccum
import proofs.«167980_j43757126811747_1_alg».proof.Proof.LossSum
import Idealize.ShloMosaic.PureOps.Ideal.Laws
import Idealize.ShloMosaic.Lib.ValueIdx
import Idealize.ShloMosaic.Lib.Pipeline.Value
import Idealize.ShloMosaic.Lib.IdealHost

noncomputable section

open Idealize.ShloMosaic Idealize.ShloMosaic.TcCoe Idealize.SL.Sem
open Idealize.ShloMosaic.ValueIdx
open scoped BigOperators

namespace Cert.KernelIdeal.Sums

open Cert.KernelIdeal Cert.KernelIdeal.Gen Cert.KernelIdeal.Accum Cert.SemiLoss

/-! ## A block's sum -/

/-- The body's way of summing a 256 x 4096 block to one number - reshape to 1 x 256 x 4096, reduce the two long axes,
    reshape to 1 x 1 x 1, extract - is the double sum over the block's rows and columns. -/
theorem block_sum (v : FVec Ideal S256x4096 .f32) :
    extractAt ![0, 0, 0] (shapeCast S1x1x1 (multiReduction .add [1, 2] S1
        (shapeCast S1x256x4096 v shapeCasts_S256x4096_S1x256x4096) 0x00000000#32 reduces_S1x256x4096_S1 (.inl rfl) rfl)
        shapeCasts_S1_S1x1x1) inpos_S1x1x1_p0_0_0
      = ∑ r : Fin 256, ∑ b : Fin 4096, v (ix2 r b) := by
  unfold extractAt
  rw [shapeCast]
  refine (Ideal.multiReduction_add_total (shapeCast S1x256x4096 v shapeCasts_S256x4096_S1x256x4096) 0x00000000#32
    reduces_S1x256x4096_S1 (fun b => by fin_cases b; rfl) (.inl rfl) rfl _).trans ?_
  rw [← sum_idx2]
  exact (Shape.reshapeEquiv shapeCasts_S256x4096_S1x256x4096).sum_comp v

/-- A column of row weights spread over the columns reads, at (row, column), the row's weight. -/
theorem spread_apply (k : Vec Ideal S256x1 .f32) (r : Fin 256) (b : Fin 4096) :
    broadcastTo S256x4096 (shapeCast S256x1 k shapeCasts_S256x1_S256x1) broadcasts_S256x1_S256x4096 (ix2 r b)
      = k (ix2 r (0 : Fin 1)) := by
  rw [shapeCast_self]
  refine broadcastTo_apply k _ (ix2 r b) (ix2 r (0 : Fin 1)) fun ax => ?_
  match ax with
  | ⟨0, _⟩ => rfl
  | ⟨1, _⟩ => rfl

/-- The three block sums of a point, over the per-element terms. -/
def blockBce (o l : Vec Ideal S256x4096 .f32) (k : Vec Ideal S256x1 .f32) : EReal :=
  ∑ r : Fin 256, ∑ b : Fin 4096, bce (o (ix2 r b)) (l (ix2 r b)) (k (ix2 r (0 : Fin 1)))
def blockPseudo (o : Vec Ideal S256x4096 .f32) : EReal := ∑ r : Fin 256, ∑ b : Fin 4096, pseudo (o (ix2 r b))
def blockCons (o c : Vec Ideal S256x4096 .f32) : EReal := ∑ r : Fin 256, ∑ b : Fin 4096, cons (o (ix2 r b)) (c (ix2 r b))

/-- The cross-entropy block sum, as the body computes it. -/
theorem pay3_eq (o l : Vec Ideal S256x4096 .f32) (k : Vec Ideal S256x1 .f32) : k0_pay3 o l k = blockBce o l k := by
  unfold k0_pay3
  dsimp only
  rw [block_sum]
  unfold blockBce
  refine Finset.sum_congr rfl fun r _ => Finset.sum_congr rfl fun b _ => ?_
  rw [mulf_apply, spread_apply]
  rfl

/-- One point's update adds the point's three block sums to the accumulator's one element. -/
theorem step_apply (o c l : Vec Ideal S256x4096 .f32) (k : Vec Ideal S256x1 .f32) (prev : Vec Ideal S1x1 .f32) (y : S1x1.Idx) :
    step o c l k prev y = prev y + ((blockBce o l k + blockPseudo o) + blockCons o c) := by
  unfold step k0_pay1
  dsimp only
  rw [shapeCast_self, block_sum, block_sum, pay3_eq]
  rfl

/-! ## Blocks are rows of the arrays -/

variable (m : (ℓ : Loc nD τ sig) → Buf (Elt Ideal) ℓ)

/-- Row `r` of block `t` is row `256 t + r` of an array of 8192 rows. -/
abbrev rowOf (t : Fin cfg0.N) (r : Fin 256) : Fin 8192 :=
  ⟨256 * t.val + r.val, by have h : t.val < 32 := lt_of_lt_of_eq t.isLt N_0; have := r.isLt; omega⟩

/-- The four arrays the call reads, by row and column: the launch contents of the three float arguments, and the
    weights the host lines before the call make of the source words. -/
abbrev oArr (c : Dev nD) (a : Fin 8192) (b : Fin 4096) : EReal := m ((c : Thread nD τ).loc main_arg0) (ix2 a b)
abbrev cArr (c : Dev nD) (a : Fin 8192) (b : Fin 4096) : EReal := m ((c : Thread nD τ).loc main_arg1) (ix2 a b)
abbrev lArr (c : Dev nD) (a : Fin 8192) (b : Fin 4096) : EReal := m ((c : Thread nD τ).loc main_arg2) (ix2 a b)
abbrev kArr (c : Dev nD) (a : Fin 8192) : EReal := rowWeight (m ((c : Thread nD τ).loc main_arg3) (ix1 a))

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

theorem oblk_apply (c : Dev nD) (t : Fin cfg0.N) (r : Fin 256) (b : Fin 4096) :
    oblk m c t (ix2 r b) = oArr m c (rowOf t r) b := by
  unfold oblk iblk
  rw [View.read_apply]
  show V m c main_arg0 _ = _
  rw [V_main_arg0]
  unfold oArr
  congr 1
  funext a
  apply Fin.ext
  match a with
  | ⟨0, _⟩ => show win0_0.index t 0 * 256 + 1 * r.val = 256 * t.val + r.val; rw [(idx0 t).1]; omega
  | ⟨1, _⟩ => show win0_0.index t 1 * 4096 + 1 * b.val = b.val; rw [(idx0 t).2]; omega

theorem cblk_apply (c : Dev nD) (t : Fin cfg0.N) (r : Fin 256) (b : Fin 4096) :
    cblk m c t (ix2 r b) = cArr m c (rowOf t r) b := by
  unfold cblk iblk
  rw [View.read_apply]
  show V m c main_arg1 _ = _
  rw [V_main_arg1]
  unfold cArr
  congr 1
  funext a
  apply Fin.ext
  match a with
  | ⟨0, _⟩ => show win0_1.index t 0 * 256 + 1 * r.val = 256 * t.val + r.val; rw [(idx1 t).1]; omega
  | ⟨1, _⟩ => show win0_1.index t 1 * 4096 + 1 * b.val = b.val; rw [(idx1 t).2]; omega

theorem lblk_apply (c : Dev nD) (t : Fin cfg0.N) (r : Fin 256) (b : Fin 4096) :
    lblk m c t (ix2 r b) = lArr m c (rowOf t r) b := by
  unfold lblk iblk
  rw [View.read_apply]
  show V m c main_arg2 _ = _
  rw [V_main_arg2]
  unfold lArr
  congr 1
  funext a
  apply Fin.ext
  match a with
  | ⟨0, _⟩ => show win0_2.index t 0 * 256 + 1 * r.val = 256 * t.val + r.val; rw [(idx2 t).1]; omega
  | ⟨1, _⟩ => show win0_2.index t 1 * 4096 + 1 * b.val = b.val; rw [(idx2 t).2]; omega

/-- The weights column the call reads is, row by row, the weight of the row's source word: the nine host lines before
    the call compare the word with 0 and with 1, join the two bits, convert, and add a unit axis. -/
theorem weights_apply (c : Dev nD) (a : Fin 8192) :
    (V m c main_call0_v6 : S8192x1.Idx → EReal) (ix2 a (0 : Fin 1)) = kArr m c a := by
  have e : (V m c main_call0_v6 : S8192x1.Idx → EReal)
      = broadcastInDim S8192x1 ![0] bcast_S8192_S8192x1_0 (uitofp (F := Ideal) .f32
          (ori (cmpi .eq (m ((c : Thread nD τ).loc main_arg3)) (broadcastInDim S8192 ![] bcast_S_S8192 (constantI S_ 32 0#32)))
            (cmpi .eq (m ((c : Thread nD τ).loc main_arg3)) (broadcastInDim S8192 ![] bcast_S_S8192 (constantI S_ 32 1#32))))) := by
    show StableHlo.after hostOps0 (fun b => m (c, b)) (Proc.devRef .tc main_call0_v6) = _
    after_results
    rfl
  rw [e]
  refine (broadcastInDim_apply _ _ _ (ix2 a (0 : Fin 1)) (ix1 a) fun ax => ?_).trans ?_
  · match ax with
    | ⟨0, _⟩ => rfl
  · unfold kArr rowWeight
    show FloatOps.uitofp (F := Ideal) .f32 (IntOp.ori (IntOp.cmpi .eq _ (broadcastInDim S8192 ![] bcast_S_S8192 (constantI S_ 32 0#32) (ix1 a)))
      (IntOp.cmpi .eq _ (broadcastInDim S8192 ![] bcast_S_S8192 (constantI S_ 32 1#32) (ix1 a)))) = _
    rw [broadcastInDim_scalar_apply, broadcastInDim_scalar_apply]
    rfl

theorem kblk_apply (c : Dev nD) (t : Fin cfg0.N) (r : Fin 256) :
    kblk m c t (ix2 r (0 : Fin 1)) = kArr m c (rowOf t r) := by
  rw [← weights_apply]
  unfold kblk iblk
  rw [View.read_apply]
  show V m c main_call0_v6 _ = V m c main_call0_v6 _
  congr 1
  funext a
  apply Fin.ext
  match a with
  | ⟨0, _⟩ => show win0_3.index t 0 * 256 + 1 * r.val = 256 * t.val + r.val; rw [(idx3 t).1]; omega
  | ⟨1, _⟩ => show win0_3.index t 1 * 1 + 1 * 0 = 0; rw [(idx3 t).2]

/-! ## The accumulator's value -/

theorem bce_blocks (c : Dev nD) (t : Fin cfg0.N) :
    blockBce (oblk m c t) (lblk m c t) (kblk m c t)
      = ∑ r : Fin 256, ∑ b : Fin 4096, bce (oArr m c (rowOf t r) b) (lArr m c (rowOf t r) b) (kArr m c (rowOf t r)) := by
  unfold blockBce
  refine Finset.sum_congr rfl fun r _ => Finset.sum_congr rfl fun b _ => ?_
  rw [oblk_apply, lblk_apply, kblk_apply]

theorem pseudo_blocks (c : Dev nD) (t : Fin cfg0.N) :
    blockPseudo (oblk m c t) = ∑ r : Fin 256, ∑ b : Fin 4096, pseudo (oArr m c (rowOf t r) b) := by
  unfold blockPseudo
  refine Finset.sum_congr rfl fun r _ => Finset.sum_congr rfl fun b _ => ?_
  rw [oblk_apply]

theorem cons_blocks (c : Dev nD) (t : Fin cfg0.N) :
    blockCons (oblk m c t) (cblk m c t)
      = ∑ r : Fin 256, ∑ b : Fin 4096, cons (oArr m c (rowOf t r) b) (cArr m c (rowOf t r) b) := by
  unfold blockCons
  refine Finset.sum_congr rfl fun r _ => Finset.sum_congr rfl fun b _ => ?_
  rw [oblk_apply, cblk_apply]

/-- Block sums of row sums, added over the 32 blocks, are the sum over all 8192 rows. -/
theorem regroup (g : Fin 8192 → EReal) (f : Fin cfg0.N → EReal) (hf : ∀ t, f t = ∑ r : Fin 256, g (rowOf t r)) :
    ∑ t : Fin cfg0.N, f t = ∑ a : Fin 8192, g a := by
  rw [sum_row_blocks g]
  exact Finset.sum_congr rfl fun t _ => hf t

/-- What one point adds to the accumulator. -/
def pointSum (c : Dev nD) (n : ℕ) (h : n < cfg0.N) : EReal :=
  (blockBce (oblk m c ⟨n, h⟩) (lblk m c ⟨n, h⟩) (kblk m c ⟨n, h⟩) + blockPseudo (oblk m c ⟨n, h⟩))
    + blockCons (oblk m c ⟨n, h⟩) (cblk m c ⟨n, h⟩)

/-- The zero the first point stores. -/
theorem pay2_apply (y : S1x1.Idx) : k0_pay2 (F := Ideal) y = zeroW := by
  unfold k0_pay2
  rw [shapeCast_self]
  rfl

/-- After point `n` the accumulator's one element is the float zero plus what the points so far added. -/
theorem acc_apply (c : Dev nD) (y : S1x1.Idx) : ∀ (n : ℕ) (h : n < cfg0.N),
    acc m c n h y = zeroW + ∑ t : Fin (n + 1), pointSum m c t.val (lt_of_le_of_lt (Nat.lt_succ_iff.mp t.isLt) h) :=
  running_total cfg0.N (pointSum m c) zeroW (fun n h => acc m c n h y)
    (fun h => by
      show step _ _ _ _ k0_pay2 y = _
      rw [step_apply, pay2_apply]
      rfl)
    (fun n h => by
      show step _ _ _ _ (acc m c n _) y = _
      rw [step_apply]
      rfl)

/-- The program's result is the loss of the four arrays: the accumulator after the last point holds the three totals
    (the blocks' sums regrouped into sums over all rows), and the host divides it by 8192. -/
theorem answer_eq (c : Dev nD) (i : S_.Idx) :
    answer m c i = loss (oArr m c) (cArr m c) (lArr m c) (kArr m c) := by
  show Ideal.div (acc m c 31 (tLast).isLt (Shape.reshapeEquiv shapeCasts_S1x1_S_ i)) (Ideal.ofBits .f32 0x46000000#32) = _
  unfold loss
  congr 1
  rw [acc_apply m c _ 31 _]
  show zeroW + ∑ t : Fin cfg0.N, pointSum m c t.val t.isLt = _
  unfold pointSum total
  rw [sum_three,
    regroup (fun a => ∑ b : Fin 4096, bce (oArr m c a b) (lArr m c a b) (kArr m c a)) _ (bce_blocks m c),
    regroup (fun a => ∑ b : Fin 4096, cons (oArr m c a b) (cArr m c a b)) _ (cons_blocks m c),
    regroup (fun a => ∑ b : Fin 4096, pseudo (oArr m c a b)) _ (pseudo_blocks m c)]
  rw [show zeroW = 0 from Ideal.ofBits_zero_f32]
  simp only [zero_add]

end Cert.KernelIdeal.Sums

end
-- ==== Proof.RefSums.lean ====
/-
  The reference's numbers, at the extended reals.

  The reference forms the three per-element terms over the whole 8192 x 4096 arrays, sums each over every index from the
  float zero, adds the three sums (cross-entropy, consistency, pseudo-label) and divides by 8192: read one operation at
  a time, that is `loss` of LossSum.lean. Its negations are the host's (`bce_eq_neg`), its row weights a unit column
  spread over the columns (`weight_ref`); everything else is the same operation on the same element.
-/
import proofs.«167980_j43757126811747_1_alg».proof.Proof.Gen.ReferenceIdeal.Read
import proofs.«167980_j43757126811747_1_alg».proof.Proof.LossSum
import Idealize.ShloMosaic.PureOps.Ideal.Laws
import Idealize.ShloMosaic.Lib.ValueIdx

noncomputable section

open Idealize.ShloMosaic Idealize.ShloMosaic.TcCoe Idealize.SL.Sem
open Idealize.ShloMosaic.ValueIdx
open scoped BigOperators

namespace Cert.ReferenceIdeal.Sums

open Cert.ReferenceIdeal Cert.ReferenceIdeal.Read Cert.SemiLoss

/-- The pseudo-label term, element by element. -/
theorem pseudo_ref (x0 : FVec Ideal S8192x4096 .f32) (i : S8192x4096.Idx) :
    val_main_v35 (F := Ideal) x0 i = pseudo (x0 i) := rfl

/-- The consistency term, element by element. -/
theorem cons_ref (x0 x1 : FVec Ideal S8192x4096 .f32) (i : S8192x4096.Idx) :
    val_main_v38 (F := Ideal) x0 x1 i = cons (x0 i) (x1 i) := rfl

/-- The weights spread over the columns read, at (row, column), the weight of the row's source word. -/
theorem weight_ref (x3 : IVec S8192 32) (a : Fin 8192) (b : Fin 4096) :
    val_main_v20 (F := Ideal) x3 (ix2 a b) = rowWeight (x3 (ix1 a)) := by
  rw [val_main_v20_apply, val_main_v19_apply]
  have e : idx_main_v19 (idx_main_v20 (ix2 a b)) = ix1 a := funext fun d => by
    match d with
    | ⟨0, _⟩ => rfl
  rw [e]
  rfl

/-- The weighted cross-entropy term, element by element. -/
theorem bce_ref (x0 x2 : FVec Ideal S8192x4096 .f32) (x3 : IVec S8192 32) (a : Fin 8192) (b : Fin 4096) :
    val_main_v21 (F := Ideal) x0 x2 x3 (ix2 a b) = bce (x0 (ix2 a b)) (x2 (ix2 a b)) (rowWeight (x3 (ix1 a))) := by
  rw [val_main_v21_apply, weight_ref, bce_eq_neg]
  rfl

/-- The reference's result is the loss of its four arguments. -/
theorem result_eq (x0 x1 x2 : FVec Ideal S8192x4096 .f32) (x3 : IVec S8192 32) (i : S_.Idx) :
    val_main_v42 (F := Ideal) x0 x1 x2 x3 i
      = loss (fun a b => x0 (ix2 a b)) (fun a b => x1 (ix2 a b)) (fun a b => x2 (ix2 a b)) (fun a => rowWeight (x3 (ix1 a))) := by
  rw [val_main_v42_apply, val_main_v41_apply, val_main_v40_apply, val_main_v22_apply, val_main_v39_apply, val_main_v36_apply,
    sum_idx2, sum_idx2, sum_idx2]
  unfold loss total
  simp only [bce_ref, cons_ref, pseudo_ref]
  rfl

end Cert.ReferenceIdeal.Sums

end
-- ==== Proof.lean ====
/-
  A loss over 8192 x 4096 predictions, computed two ways.

  Per element the loss has a clamped, row-weighted cross-entropy term and two squared distances from a sharpened
  prediction (LossSum.lean). The reference sums each kind of term over the whole arrays, adds the three sums and divides
  by 8192. The kernel walks the rows 256 at a time: at each of its 32 grid points it sums the three kinds of terms over
  the block, adds the three block sums to a one-element accumulator that it zeroed at the first point, and at the last
  point hands the accumulator out; the host then divides by 8192.

  On the extended reals addition is commutative and associative, infinities included, so the accumulator's running
  total of block sums is the reference's three whole-array sums: no input needs to be finite for that, and the proof
  never opens the precondition. The two subtractions from zero in the kernel's cross-entropy term are the reference's
  negations (`0 - x = -x`). Nothing else differs: logarithms, maxima, the comparison with one half, the two quotients
  by 4 and the final quotient by 8192 are the same operations on the same elements on both sides.

  KernelAccum.lean reads the accumulator off the kernel's run (for any float values); KernelSums.lean and RefSums.lean
  read the two results at the extended reals as `SemiLoss.loss` of the arguments; here the claims are put together.
  The idealization rewrote nothing, so `preserves` is `True`.
-/
import proofs.«167980_j43757126811747_1_alg».proof.Defs
import proofs.«167980_j43757126811747_1_alg».proof.Proof.Gen.Kernel
import proofs.«167980_j43757126811747_1_alg».proof.Proof.Gen.Kernel.Skeleton
import proofs.«167980_j43757126811747_1_alg».proof.Proof.Gen.Kernel.Launch
import proofs.«167980_j43757126811747_1_alg».proof.Proof.Gen.Kernel.Points
import proofs.«167980_j43757126811747_1_alg».proof.Proof.Gen.Kernel.Frame
import proofs.«167980_j43757126811747_1_alg».proof.Proof.Gen.KernelIdeal
import proofs.«167980_j43757126811747_1_alg».proof.Proof.Gen.KernelIdeal.Skeleton
import proofs.«167980_j43757126811747_1_alg».proof.Proof.Gen.KernelIdeal.Launch
import proofs.«167980_j43757126811747_1_alg».proof.Proof.Gen.KernelIdeal.Points
import proofs.«167980_j43757126811747_1_alg».proof.Proof.Gen.KernelIdeal.Frame
import proofs.«167980_j43757126811747_1_alg».proof.Proof.Gen.ReferenceIdeal
import proofs.«167980_j43757126811747_1_alg».proof.Proof.Gen.Pre_finite_inputs
import proofs.«167980_j43757126811747_1_alg».proof.Proof.Gen.ReferenceIdeal.Run
import proofs.«167980_j43757126811747_1_alg».proof.Proof.Gen.ReferenceIdeal.Read
import proofs.«167980_j43757126811747_1_alg».proof.Proof.KernelSums
import proofs.«167980_j43757126811747_1_alg».proof.Proof.RefSums
import Idealize.ShloMosaic.Adequacy
import Idealize.ShloMosaic.Init

noncomputable section

namespace Cert.Proof

open Idealize.ShloMosaic Idealize.SL.Sem

/-- Both programs run to the loss of arguments that agree: the kernel's result is `loss` of its argument arrays
    (`answer_eq`), the reference's `loss` of its own (`result_eq`). -/
theorem algebraic : Cert.algebraic_KernelIdeal_ReferenceIdeal := by
  intro m ρ m' ρ' _ hagree
  refine ⟨fun c => Cert.KernelIdeal.Accum.answer m c, Cert.KernelIdeal.Accum.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq]
  funext i
  show _ = Cert.KernelIdeal.Accum.answer m c i
  rw [Cert.ReferenceIdeal.Sums.result_eq, Cert.KernelIdeal.Sums.answer_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
